-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768 : Shape := ⟨1, ![32768]⟩
abbrev S32768x3 : Shape := ⟨2, ![32768, 3]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel

variable [Facts]

def fn {F : FTy → Type} [FloatOps F] (main_arg0 : IVec S32768 32) (main_arg1 : FVec F S32768x3 .f32) : IVec S_ 1 :=
  let main_v0 : FVec F S32768x3 .f32 := Host.absf main_arg1
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  main_v3
-- ==== Kernel.lean ====
abbrev S32768 : Shape := ⟨1, ![32768]⟩
abbrev S32768x3 : Shape := ⟨2, ![32768, 3]⟩
abbrev S256x128 : Shape := ⟨2, ![256, 128]⟩
abbrev S3x32768 : Shape := ⟨2, ![3, 32768]⟩
abbrev S3x256x128 : Shape := ⟨3, ![3, 256, 128]⟩
abbrev S1x1 : Shape := ⟨2, ![1, 1]⟩
abbrev S3x1x1 : Shape := ⟨3, ![3, 1, 1]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 7
  | .vmem => 3
  | .smem => 0
  | _ => 0

abbrev bufTy : (tb : Table) → Fin (tcTables nBuf tb) → BufTy
  | .hbm, ⟨0, _⟩ => ⟨S32768, .i32⟩
  | .hbm, ⟨1, _⟩ => ⟨S32768x3, .f32⟩
  | .hbm, ⟨2, _⟩ => ⟨S256x128, .i32⟩
  | .hbm, ⟨3, _⟩ => ⟨S3x32768, .f32⟩
  | .hbm, ⟨4, _⟩ => ⟨S3x256x128, .f32⟩
  | .hbm, ⟨5, _⟩ => ⟨S1x1, .f32⟩
  | .hbm, ⟨6, _⟩ => ⟨S_, .f32⟩
  | .local _ .vmem, ⟨0, _⟩ => ⟨S256x128, .i32⟩
  | .local _ .vmem, ⟨1, _⟩ => ⟨S3x256x128, .f32⟩
  | .local _ .vmem, ⟨2, _⟩ => ⟨S1x1, .f32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S32768_S256x128 : S32768.ShapeCasts S256x128
  transposes_S32768x3_S3x32768_1_0 : S32768x3.Transposes [1, 0] S3x32768
  shapeCasts_S3x32768_S3x256x128 : S3x32768.ShapeCasts S3x256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S3x256x128_S3x256x128_0_0_0 : ∀ a, (![0, 0, 0] : Fin 3 → Nat) a + S3x256x128.size a ≤ S3x256x128.size a
  h_S3x256x128 : 0 < S3x256x128.numel
  shapeCasts_S3x256x128_S3x256x128 : S3x256x128.ShapeCasts S3x256x128
  slices_S256x128_o255_127_S1x1 : S256x128.Slices ![255, 127] S1x1
  slices_S3x256x128_o0_255_127_S3x1x1 : S3x256x128.Slices ![0, 255, 127] S3x1x1
  broadcasts_S3x1x1_S3x256x128 : S3x1x1.Broadcasts S3x256x128
  reduces_S3x256x128_S256x128 : S3x256x128.Reduces [0] S256x128
  broadcasts_S1x1_S256x128 : S1x1.Broadcasts S256x128
  reduces_S256x128_S256 : S256x128.Reduces [1] S256
  shapeCasts_S256_S256x1 : S256.ShapeCasts S256x1
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .i32 = 32 ∨ (Rect.block (s := S256x128) S256x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x128.size a ≤ S3x256x128.size a
  hwx0_1 : ∀ i : grid0.Coords, EltTy.bits .f32 = 32 ∨ (Rect.block (s := S3x256x128) S3x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S256x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768 : Shape := ⟨1, ![32768]⟩
abbrev S32768x3 : Shape := ⟨2, ![32768, 3]⟩
abbrev S1 : Shape := ⟨1, ![1]⟩
abbrev S_ : Shape := ⟨0, ![]⟩
abbrev S1x3 : Shape := ⟨2, ![1, 3]⟩
abbrev S3 : Shape := ⟨1, ![3]⟩

abbrev nBuf : Space → Nat
  | .hbm => 35
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32768x3, .f32⟩
  | .hbm, ⟨2, _⟩ => ⟨S1, .i32⟩
  | .hbm, ⟨3, _⟩ => ⟨S_, .i32⟩
  | .hbm, ⟨4, _⟩ => ⟨S1x3, .f32⟩
  | .hbm, ⟨5, _⟩ => ⟨S3, .f32⟩
  | .hbm, ⟨6, _⟩ => ⟨S32768, .i32⟩
  | .hbm, ⟨7, _⟩ => ⟨S32768, .i1⟩
  | .hbm, ⟨8, _⟩ => ⟨S_, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768, .f32⟩
  | .hbm, ⟨13, _⟩ => ⟨S1x3, .f32⟩
  | .hbm, ⟨14, _⟩ => ⟨S32768x3, .f32⟩
  | .hbm, ⟨15, _⟩ => ⟨S32768x3, .f32⟩
  | .hbm, ⟨16, _⟩ => ⟨S32768x3, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768, .f32⟩
  | .hbm, ⟨31, _⟩ => ⟨S32768, .f32⟩
  | .hbm, ⟨32, _⟩ => ⟨S32768, .f32⟩
  | .hbm, ⟨33, _⟩ => ⟨S_, .f32⟩
  | .hbm, ⟨34, _⟩ => ⟨S_, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S32768_S1_32767 : S32768.Slices ![32767] S1
  shapeCasts_S1_S_ : S1.ShapeCasts S_
  slices_S32768x3_S1x3_32767_0 : S32768x3.Slices ![32767, 0] S1x3
  shapeCasts_S1x3_S3 : S1x3.ShapeCasts S3
  bcast_S_S32768 : S_.BroadcastsInDim S32768 (![] : Fin 0 → Fin S32768.rank)
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  reducesTo_S32768x3_S32768_d1 : S32768x3.ReducesTo [1] S32768
  h_S_ : 0 < S_.numel
  reducesTo_S32768_S_d0 : S32768.ReducesTo [0] S_

variable [Facts₀]

class Facts : Prop extends Facts₀ where

variable [Facts]
-- ==== Proof.LossSpec.lean ====
/-
  The loss both programs compute, as one function of the two argument arrays.

  Row `n` of the coordinates is compared with the ANCHOR, the last row (row 32767): its squared distance is
  `sqDist n = Σ_d (x[32767, d] - x[n, d])²` over the three coordinates, its mask is the float word `0.0` where
  `labels[n] = labels[32767]` and the word `1.0` elsewhere, and its loss is
  `(1 - mask n) · sqDist n + mask n · max(0, 500 - sqDist n)`.  The result is the sum of the 32768 row losses.
  The three float words stay unevaluated: the same word stands at the same place on both sides.

  Also here: the one rearrangement that separates the two programs' final sums. The kernel holds the rows as
  a [256, 128] tile (row `n` at sublane `n / 128`, lane `n % 128`) and sums the lanes of each sublane first,
  then the 256 partial sums; the reference sums the 32768 rows at once. In a commutative monoid the two
  agree, whatever the summands (no finiteness is used: on the extended reals addition is commutative and
  associative also at the infinities).
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Loss

/-- The anchor's row: the last of the 32768. -/
abbrev anchor : Fin 32768 := ⟨32767, by decide⟩

/-- Row `n`'s mask: the word `0.0` where the row carries the anchor's label, the word `1.0` elsewhere. -/
def mask (lab : (⟨1, ![32768]⟩ : Shape).Idx → BitVec 32) (n : Fin 32768) : EReal :=
  Scalar.select (IntOp.cmpi .eq (lab (ix1 n)) (lab (ix1 anchor)))
    (Ideal.ofBits .f32 0x00000000#32) (Ideal.ofBits .f32 0x3F800000#32)

/-- Row `n`'s squared distance from the anchor's point, over the three coordinates. -/
def sqDist (x : (⟨2, ![32768, 3]⟩ : Shape).Idx → EReal) (n : Fin 32768) : EReal :=
  ∑ d : Fin 3, (x (ix2 anchor d) - x (ix2 n d)) * (x (ix2 anchor d) - x (ix2 n d))

/-- Row `n`'s loss: the distance where the labels agree, the hinge `max(0, 500 - sqDist)` where they differ. -/
def rowLoss (lab : (⟨1, ![32768]⟩ : Shape).Idx → BitVec 32) (x : (⟨2, ![32768, 3]⟩ : Shape).Idx → EReal)
    (n : Fin 32768) : EReal :=
  (Ideal.ofBits .f32 0x3F800000#32 - mask lab n) * sqDist x n
    + mask lab n * max (Ideal.ofBits .f32 0x00000000#32) (Ideal.ofBits .f32 0x43FA0000#32 - sqDist x n)

/-- The result: the row losses summed. -/
def total (lab : (⟨1, ![32768]⟩ : Shape).Idx → BitVec 32) (x : (⟨2, ![32768, 3]⟩ : Shape).Idx → EReal) : EReal :=
  ∑ n : Fin 32768, rowLoss lab x n

/-- The row held at sublane `r`, lane `l` of the [256, 128] tile. -/
abbrev rowAt (r : Fin 256) (l : Fin 128) : Fin 32768 := ⟨128 * r.val + l.val, by have := r.isLt; have := l.isLt; omega⟩

/-- Lanes first, then sublanes, is the sum over all rows. -/
theorem sum_sublanes_lanes {M : Type*} [AddCommMonoid M] (f : Fin 32768 → M) :
    ∑ r : Fin 256, ∑ l : Fin 128, f (rowAt r l) = ∑ n : Fin 32768, f n := by
  rw [← Fintype.sum_prod_type']
  refine Fintype.sum_equiv (finProdFinEquiv : Fin 256 × Fin 128 ≃ Fin (256 * 128)) _ _ fun p => ?_
  refine congrArg f (Fin.ext ?_)
  show 128 * p.1.val + p.2.val = p.2.val + 128 * p.1.val
  omega

/-- A sum over the one-axis indices of the row array is the sum over the rows. -/
theorem sum_idx1 {M : Type*} [AddCommMonoid M] (f : (⟨1, ![32768]⟩ : Shape).Idx → M) :
    ∑ j : (⟨1, ![32768]⟩ : Shape).Idx, f j = ∑ n : Fin 32768, f (ix1 n) :=
  Fintype.sum_equiv
    { toFun := fun j => j 0, invFun := fun n => ix1 n, left_inv := fun j => (eq_ix1 j).symm, right_inv := fun _ => rfl }
    _ _ fun j => congrArg f (eq_ix1 j)

end Cert.Loss

end
-- ==== Proof.RefLoss.lean ====
/-
  The reference's result is `Cert.Loss.total` of its two arguments.

  Its stages, read one at a time at an index: the anchor's label and point are the slices at row 32767
  (reshaped to a scalar and to a 3-vector, then broadcast back over the rows); the mask is the select of
  the label comparison between the words `0.0` and `1.0`; the distance is the host's sum over the
  coordinate axis from the word `0.0`, which at the extended reals is the real `0` and drops; and the result
  is the host's sum of the row losses over all 32768 rows, again from `0`.
-/
import proofs.«421888_j17875653886357_3_alg».proof.Proof.Gen.ReferenceIdeal.Run
import proofs.«421888_j17875653886357_3_alg».proof.Proof.Gen.ReferenceIdeal.Read
import proofs.«421888_j17875653886357_3_alg».proof.Proof.LossSpec

noncomputable section

open Idealize.ShloMosaic Idealize.ShloMosaic.ValueIdx

namespace Cert.ReferenceIdeal.RefLoss

open Cert.ReferenceIdeal Cert.ReferenceIdeal.Gen Cert.ReferenceIdeal.Read Cert.Loss

/-- The anchor's label: the slice at row 32767, as a scalar. -/
theorem anchor_label (x0 : (⟨S32768, .i32⟩ : BufTy).Contents (Elt Ideal)) (i : S_.Idx) :
    val_main_v1 (F := Ideal) x0 i = x0 (ix1 anchor) := by
  unfold val_main_v1
  rw [shapeCast_apply (val_main_v0 (F := Ideal) x0) shapeCasts_S1_S_ i (ix1 (0 : Fin 1))
    (by rw [Shape.rowMajor_val_one]; exact (Shape.rowMajorPi_zero _ _).symm), val_main_v0_apply]
  exact congrArg x0 (funext fun a => Fin.ext (by match a with | ⟨0, _⟩ => rfl))

/-- The mask stage at row `n`. -/
theorem mask_eq (x0 : (⟨S32768, .i32⟩ : BufTy).Contents (Elt Ideal)) (n : Fin 32768) :
    val_main_v6 (F := Ideal) x0 (ix1 n) = mask x0 n := by
  rw [val_main_v6_apply, val_main_v5_apply, val_main_v4_apply, anchor_label, val_main_call0_v0_apply,
    val_main_call0_v1_apply, val_main_cst_apply, val_main_cst_0_apply]
  rfl

/-- The anchor's point, broadcast over the rows, at row `n` and coordinate `d`. -/
theorem anchor_point (x1 : (⟨S32768x3, .f32⟩ : BufTy).Contents (Elt Ideal)) (n : Fin 32768) (d : Fin 3) :
    val_main_v8 (F := Ideal) x1 (ix2 n d) = x1 (ix2 anchor d) := by
  rw [val_main_v8_apply, val_main_v7_apply, val_main_v3_apply, val_main_v2_apply]
  refine congrArg x1 (funext fun a => Fin.ext ?_)
  match a with
  | ⟨0, _⟩ => rfl
  | ⟨1, _⟩ => exact Nat.mod_eq_of_lt d.isLt

/-- The distance stage at row `n`: the host's sum from `0.0` over the three coordinates. -/
theorem dist_eq (x1 : (⟨S32768x3, .f32⟩ : BufTy).Contents (Elt Ideal)) (n : Fin 32768) :
    val_main_v11 (F := Ideal) x1 (ix1 n) = sqDist x1 n := by
  rw [val_main_v11_apply, val_main_cst_1_apply, Ideal.ofBits_def, Ideal.ofBits_zero_f32, zero_add]
  unfold sqDist
  refine Finset.sum_congr rfl fun d _ => ?_
  have hi : idx_main_v11 (ix1 n) d = ix2 n d :=
    funext fun a => Fin.ext (by match a with | ⟨0, _⟩ => rfl | ⟨1, _⟩ => rfl)
  rw [hi, val_main_v10_apply, val_main_v9_apply, anchor_point]
  rfl

/-- The loss stage at row `n`. -/
theorem row_eq (x0 : (⟨S32768, .i32⟩ : BufTy).Contents (Elt Ideal)) (x1 : (⟨S32768x3, .f32⟩ : BufTy).Contents (Elt Ideal))
    (n : Fin 32768) : val_main_v22 (F := Ideal) x0 x1 (ix1 n) = rowLoss x0 x1 n := by
  rw [val_main_v22_apply, val_main_v15_apply, val_main_v21_apply, val_main_v14_apply, val_main_v13_apply,
    val_main_v20_apply, val_main_v19_apply, val_main_v17_apply, val_main_v12_apply, val_main_v16_apply,
    val_main_v18_apply, val_main_cst_2_apply, val_main_cst_3_apply, val_main_cst_4_apply, mask_eq, dist_eq]
  rfl

/-- The reference's result: the sum of the row losses. -/
theorem result_eq (x0 : (⟨S32768, .i32⟩ : BufTy).Contents (Elt Ideal)) (x1 : (⟨S32768x3, .f32⟩ : BufTy).Contents (Elt Ideal))
    (i : S_.Idx) : val_main_v23 (F := Ideal) x0 x1 i = total x0 x1 := by
  rw [val_main_v23_apply, val_main_cst_5_apply, Ideal.ofBits_def, Ideal.ofBits_zero_f32, zero_add, sum_idx1]
  exact Finset.sum_congr rfl fun n _ => row_eq x0 x1 n

end Cert.ReferenceIdeal.RefLoss

end
-- ==== Proof.KernelLoss.lean ====
/-
  What the kernel body stores, as a function of its two loaded blocks, and that this is `Cert.Loss.total`
  of the argument arrays.

  The body sees the labels as a [256, 128] tile `L` and the coordinates as three such tiles `X` (one per
  coordinate). Its anchor is the tile entry at sublane 255, lane 127 — the last row. Per tile entry it
  forms the same mask, squared distance (a sum over the leading axis of `X`, three terms) and loss as
  `Cert.Loss.rowLoss`; it then sums the 128 lanes of each sublane and the 256 sublane sums. The payload is
  restated here as a chain of named pieces (`pay_pieces`, by unfolding), each piece is read at an index,
  and the two-stage sum is carried to the single sum over the rows by `Cert.Loss.sum_sublanes_lanes`.

  The host's layout in front of the region: `L` is the label array reshaped (row `n` at sublane `n / 128`,
  lane `n % 128`), `X` the coordinate array transposed and reshaped the same way.
-/
import proofs.«421888_j17875653886357_3_alg».proof.Proof.Gen.KernelIdeal.Skeleton
import proofs.«421888_j17875653886357_3_alg».proof.Proof.LossSpec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.TileLoss

open Cert.KernelIdeal Cert.KernelIdeal.Gen Cert.Loss

/-! ## The payload's pieces -/

/-- The anchor's label, spread over the tile. -/
def anchorLab (L : IVec S256x128 32) : IVec S256x128 32 :=
  broadcastTo S256x128 (extractStridedSlice S1x1 ![255, 127] L slices_S256x128_o255_127_S1x1) broadcasts_S1x1_S256x128

/-- The anchor's point, spread over the three coordinate tiles. -/
def anchorPt (X : FVec Ideal S3x256x128 .f32) : FVec Ideal S3x256x128 .f32 :=
  broadcastTo S3x256x128 (extractStridedSlice S3x1x1 ![0, 255, 127] X slices_S3x256x128_o0_255_127_S3x1x1)
    broadcasts_S3x1x1_S3x256x128

/-- The tile of squared distances: the squared differences summed over the coordinate axis. -/
def sqTile (X : FVec Ideal S3x256x128 .f32) : FVec Ideal S256x128 .f32 :=
  multiReduction .add [0] S256x128 (mulf (subf (anchorPt X) X) (subf (anchorPt X) X)) 0x00000000#32
    reduces_S3x256x128_S256x128 (.inl rfl) rfl

/-- The tile of masks. -/
def maskTile (L : IVec S256x128 32) : FVec Ideal S256x128 .f32 :=
  select (cmpi .eq L (anchorLab L)) (broadcast S256x128 (Scalar.ofBits .f32 0x00000000#32))
    (broadcast S256x128 (Scalar.ofBits .f32 0x3F800000#32))

/-- The tile of losses. -/
def lossTile (L : IVec S256x128 32) (X : FVec Ideal S3x256x128 .f32) : FVec Ideal S256x128 .f32 :=
  addf (mulf (subf (broadcast S256x128 (Scalar.ofBits .f32 0x3F800000#32)) (maskTile L)) (sqTile X))
    (mulf (maskTile L) (maximumf (broadcast S256x128 (Scalar.ofBits .f32 0x00000000#32))
      (subf (broadcast S256x128 (Scalar.ofBits .f32 0x43FA0000#32)) (sqTile X))))

/-- A tile summed to one entry: lanes first (kept as a column), then sublanes. -/
def sumTile (T : FVec Ideal S256x128 .f32) : FVec Ideal S1x1 .f32 :=
  shapeCast S1x1 (multiReduction .add [0] S1
    (shapeCast S256x1 (multiReduction .add [1] S256 T 0x00000000#32 reduces_S256x128_S256 (.inl rfl) rfl) shapeCasts_S256_S256x1)
    0x00000000#32 reduces_S256x1_S1 (.inl rfl) rfl) shapeCasts_S1_S1x1

/-- The stored value is the loss tile of the two loaded blocks, summed. -/
theorem pay_pieces (v0 : Vec Ideal S256x128 .i32) (v2 : Vec Ideal S3x256x128 .f32) :
    k0_pay1 (F := Ideal) v0 v2
      = sumTile (lossTile (shapeCast S256x128 v0 shapeCasts_S256x128_S256x128)
          (shapeCast S3x256x128 v2 shapeCasts_S3x256x128_S3x256x128)) := rfl

/-! ## Each piece at an index -/

theorem anchorLab_apply (L : IVec S256x128 32) (y : S256x128.Idx) : anchorLab L y = L (ix2 255 127) := by
  unfold anchorLab
  refine (broadcastTo_apply _ broadcasts_S1x1_S256x128 y (ix2 (0 : Fin 1) (0 : Fin 1)) fun a => ?_).trans ?_
  · match a with
    | ⟨0, _⟩ => show 0 = if (1 : Nat) = 1 then 0 else _; rw [if_pos rfl]
    | ⟨1, _⟩ => show 0 = if (1 : Nat) = 1 then 0 else _; rw [if_pos rfl]
  · exact extractStridedSlice_apply _ L slices_S256x128_o255_127_S1x1 _ (ix2 255 127) fun a => by
      match a with
      | ⟨0, _⟩ => rfl
      | ⟨1, _⟩ => rfl

theorem anchorPt_apply (X : FVec Ideal S3x256x128 .f32) (d : Fin 3) (r : Fin 256) (l : Fin 128) :
    anchorPt X (ix3 d r l) = X (ix3 d 255 127) := by
  unfold anchorPt
  refine (broadcastTo_apply _ broadcasts_S3x1x1_S3x256x128 (ix3 d r l) (ix3 d (0 : Fin 1) (0 : Fin 1)) fun a => ?_).trans ?_
  · match a with
    | ⟨0, _⟩ => show d.val = if (3 : Nat) = 1 then 0 else d.val; rw [if_neg (by decide)]
    | ⟨1, _⟩ => show 0 = if (1 : Nat) = 1 then 0 else _; rw [if_pos rfl]
    | ⟨2, _⟩ => show 0 = if (1 : Nat) = 1 then 0 else _; rw [if_pos rfl]
  · exact extractStridedSlice_apply _ X slices_S3x256x128_o0_255_127_S3x1x1 _ (ix3 d 255 127) fun a => by
      match a with
      | ⟨0, _⟩ => show d.val = 0 + d.val; omega
      | ⟨1, _⟩ => rfl
      | ⟨2, _⟩ => rfl

/-- The squared distance at a tile entry: three terms, one per coordinate tile. -/
theorem sqTile_apply (X : FVec Ideal S3x256x128 .f32) (r : Fin 256) (l : Fin 128) :
    sqTile X (ix2 r l) = ∑ d : Fin 3, (X (ix3 d 255 127) - X (ix3 d r l)) * (X (ix3 d 255 127) - X (ix3 d r l)) := by
  unfold sqTile
  refine (Ideal.multiReduction_add_single _ _ reduces_S3x256x128_S256x128 _ _ (ix2 r l)).trans ?_
  refine Finset.sum_congr rfl fun (d : Fin 3) _ => ?_
  have hi : reduces_S3x256x128_S256x128.lift (ix2 r l) d = ix3 d r l :=
    funext fun a => Fin.ext (by match a with | ⟨0, _⟩ => rfl | ⟨1, _⟩ => rfl | ⟨2, _⟩ => rfl)
  rw [hi]
  show (anchorPt X (ix3 d r l) - X (ix3 d r l)) * (anchorPt X (ix3 d r l) - X (ix3 d r l)) = _
  rw [anchorPt_apply]

theorem maskTile_apply (L : IVec S256x128 32) (r : Fin 256) (l : Fin 128) :
    maskTile L (ix2 r l)
      = Scalar.select (IntOp.cmpi .eq (L (ix2 r l)) (L (ix2 255 127)))
          (Ideal.ofBits .f32 0x00000000#32) (Ideal.ofBits .f32 0x3F800000#32) := by
  show Scalar.select (IntOp.cmpi .eq (L (ix2 r l)) (anchorLab L (ix2 r l))) _ _ = _
  rw [anchorLab_apply]
  rfl

/-- Lanes, then sublanes. -/
theorem sumTile_apply (T : FVec Ideal S256x128 .f32) (j : S1x1.Idx) :
    sumTile T j = ∑ r : Fin 256, ∑ l : Fin 128, T (ix2 r l) := by
  unfold sumTile
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show 0 = (j 0).val * 1 + (j 1).val
    omega
  refine (Ideal.multiReduction_add_single _ _ reduces_S256x1_S1 _ _ (ix1 (0 : Fin 1))).trans ?_
  refine Finset.sum_congr rfl fun (r : Fin 256) _ => ?_
  have hi : reduces_S256x1_S1.lift (ix1 (0 : Fin 1)) r = ix2 r (0 : Fin 1) :=
    funext fun a => Fin.ext (by match a with | ⟨0, _⟩ => rfl | ⟨1, _⟩ => rfl)
  rw [hi]
  refine (shapeCast_apply _ shapeCasts_S256_S256x1 (ix2 r (0 : Fin 1)) (ix1 r) ?_).trans ?_
  · rw [Shape.rowMajor_val_one, Shape.rowMajor_val_two]
    show r.val = r.val * 1 + 0
    omega
  refine (Ideal.multiReduction_add_single _ _ reduces_S256x128_S256 _ _ (ix1 r)).trans ?_
  refine Finset.sum_congr rfl fun (l : Fin 128) _ => ?_
  exact congrArg T (funext fun a => Fin.ext (by match a with | ⟨0, _⟩ => rfl | ⟨1, _⟩ => rfl))

/-! ## The host's layout in front of the region -/

/-- The label tile at sublane `r`, lane `l` is the label of row `128 r + l`. -/
theorem labTile_apply (x0 : IVec S32768 32) (h : S32768.ShapeCasts S256x128) (r : Fin 256) (l : Fin 128) :
    shapeCast S256x128 x0 h (ix2 r l) = x0 (ix1 (rowAt r l)) := by
  refine shapeCast_apply x0 h (ix2 r l) (ix1 (rowAt r l)) ?_
  rw [Shape.rowMajor_val_one, Shape.rowMajor_val_two]
  show 128 * r.val + l.val = r.val * 128 + l.val
  omega

/-- Coordinate tile `d` at sublane `r`, lane `l` is coordinate `d` of row `128 r + l`. -/
theorem ptTile_apply (x1 : FVec Ideal S32768x3 .f32) (ht : S32768x3.Transposes [1, 0] S3x32768)
    (h : S3x32768.ShapeCasts S3x256x128) (d : Fin 3) (r : Fin 256) (l : Fin 128) :
    shapeCast S3x256x128 (transpose S3x32768 [1, 0] x1 ht) h (ix3 d r l) = x1 (ix2 (rowAt r l) d) := by
  refine (shapeCast_apply _ h (ix3 d r l) (ix2 d (rowAt r l)) ?_).trans ?_
  · rw [Shape.rowMajor_val_two, Shape.rowMajor_val_three]
    show d.val * 32768 + (128 * r.val + l.val) = (d.val * 256 + r.val) * 128 + l.val
    omega
  · exact transpose_apply [1, 0] x1 ht (ix2 d (rowAt r l)) (ix2 (rowAt r l) d) fun b => by
      match b with
      | ⟨0, _⟩ => rfl
      | ⟨1, _⟩ => rfl

/-! ## The stored value is the total -/

/-- The tile's corner entry, sublane 255 and lane 127, holds the last row: the anchor. -/
theorem rowAt_corner : rowAt 255 127 = anchor := Fin.ext (by decide)

/-- The mask tile of the reshaped labels, at an entry, is the mask of the row held there. -/
theorem maskTile_rows (x0 : IVec S32768 32) (h0 : S32768.ShapeCasts S256x128) (r : Fin 256) (l : Fin 128) :
    maskTile (shapeCast S256x128 x0 h0) (ix2 r l) = mask x0 (rowAt r l) := by
  rw [maskTile_apply, labTile_apply, labTile_apply, rowAt_corner]
  rfl

/-- The distance tile of the transposed, reshaped coordinates, at an entry, is the distance of the row held there. -/
theorem sqTile_rows (x1 : FVec Ideal S32768x3 .f32) (ht : S32768x3.Transposes [1, 0] S3x32768)
    (h1 : S3x32768.ShapeCasts S3x256x128) (r : Fin 256) (l : Fin 128) :
    sqTile (shapeCast S3x256x128 (transpose S3x32768 [1, 0] x1 ht) h1) (ix2 r l) = sqDist x1 (rowAt r l) := by
  rw [sqTile_apply]
  unfold sqDist
  refine Finset.sum_congr rfl fun (d : Fin 3) _ => ?_
  rw [ptTile_apply, ptTile_apply, rowAt_corner]

/-- The loss tile of the reshaped arguments, entry by entry, is the row loss of the row held there. -/
theorem lossTile_apply (x0 : IVec S32768 32) (x1 : FVec Ideal S32768x3 .f32) (h0 : S32768.ShapeCasts S256x128)
    (ht : S32768x3.Transposes [1, 0] S3x32768) (h1 : S3x32768.ShapeCasts S3x256x128) (r : Fin 256) (l : Fin 128) :
    lossTile (shapeCast S256x128 x0 h0) (shapeCast S3x256x128 (transpose S3x32768 [1, 0] x1 ht) h1) (ix2 r l)
      = rowLoss x0 x1 (rowAt r l) := by
  show (Ideal.ofBits .f32 0x3F800000#32 - maskTile _ (ix2 r l)) * sqTile _ (ix2 r l)
      + maskTile _ (ix2 r l) * max (Ideal.ofBits .f32 0x00000000#32) (Ideal.ofBits .f32 0x43FA0000#32 - sqTile _ (ix2 r l)) = _
  rw [maskTile_rows, sqTile_rows]
  rfl

/-- The body's stored value, of the arguments as the host lays them out, is `total` at its one entry. -/
theorem pay_total (x0 : IVec S32768 32) (x1 : FVec Ideal S32768x3 .f32) (h0 : S32768.ShapeCasts S256x128)
    (ht : S32768x3.Transposes [1, 0] S3x32768) (h1 : S3x32768.ShapeCasts S3x256x128) (j : S1x1.Idx) :
    k0_pay1 (F := Ideal) (shapeCast S256x128 x0 h0) (shapeCast S3x256x128 (transpose S3x32768 [1, 0] x1 ht) h1) j
      = total x0 x1 := by
  rw [pay_pieces, sumTile_apply, shapeCast_self, shapeCast_self]
  unfold total
  rw [← sum_sublanes_lanes]
  exact Finset.sum_congr rfl fun r _ => Finset.sum_congr rfl fun l _ => lossTile_apply x0 x1 h0 ht h1 r l

end Cert.KernelIdeal.TileLoss

end
-- ==== Proof.KernelRun.lean ====
/-
  The idealized kernel's run, read: its result buffer ends at `Cert.Loss.total` of the two argument arrays.

  The grid has one point and every window's block is its whole array, so the one write-back leaves the
  body's stored value in the region's output array; the host line after the region reshapes that [1, 1]
  array to a scalar; the host lines before it lay the arguments out as the tiles the body loads.
-/
import proofs.«421888_j17875653886357_3_alg».proof.Defs
import proofs.«421888_j17875653886357_3_alg».proof.Proof.Gen.KernelIdeal.Frame
import proofs.«421888_j17875653886357_3_alg».proof.Proof.KernelLoss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.LossRun

open Cert.KernelIdeal Cert.KernelIdeal.Gen Cert.Loss

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Every window sits at block index zero on every axis, at the grid's one point. -/
theorem index_zero : ∀ t : Fin cfg0.N,
    win0_0.index t (0 : Fin 2) = 0 ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- The label window's block is the whole label tile. -/
theorem labels_block (c : Dev nD) (t : Fin cfg0.N) : (iblk m c 0 t : Vec Ideal S256x128 .i32) = V m c main_v0 := by
  obtain ⟨e0, e1, -⟩ := index_zero t
  funext y
  show V m c main_v0 (((cfg0.win 0).blk t).view.emb y) = V m c main_v0 y
  refine congrArg (V m c main_v0) (funext fun a => Fin.ext ?_)
  match a with
  | ⟨0, _⟩ => show win0_0.index t (0 : Fin 2) * 256 + 1 * (y 0).val = (y 0).val; omega
  | ⟨1, _⟩ => show win0_0.index t (1 : Fin 2) * 128 + 1 * (y 1).val = (y 1).val; omega

/-- The coordinate window's block is the three whole coordinate tiles. -/
theorem coords_block (c : Dev nD) (t : Fin cfg0.N) : (iblk m c 1 t : Vec Ideal S3x256x128 .f32) = V m c main_v2 := by
  obtain ⟨-, -, e0, e1, e2, -⟩ := index_zero t
  funext y
  show V m c main_v2 (((cfg0.win 1).blk t).view.emb y) = V m c main_v2 y
  refine congrArg (V m c main_v2) (funext fun a => Fin.ext ?_)
  match a with
  | ⟨0, _⟩ => show win0_1.index t (0 : Fin 3) * 3 + 1 * (y 0).val = (y 0).val; omega
  | ⟨1, _⟩ => show win0_1.index t (1 : Fin 3) * 256 + 1 * (y 1).val = (y 1).val; omega
  | ⟨2, _⟩ => show win0_1.index t (2 : Fin 3) * 128 + 1 * (y 2).val = (y 2).val; omega

/-- What the region's output array holds after the run: the body's stored value of the two tiles. -/
abbrev stored (c : Dev nD) : S1x1.Idx → Elt Ideal .f32 :=
  k0_pay1 (F := Ideal) (V m c main_v0) (V m c main_v2)

/-- The one point writes back the stored value, through the whole-array block. -/
theorem flushed_eq (c : Dev nD) (t : Fin cfg0.N) :
    (dats m 0 c).flushed 2 t = ((cfg0.win 2).blk t).view.read (Elt Ideal) (stored m c) := by
  show (cfg0.win 2).cut (grid0.coords t) ((dats m 0 c).after 2 t) = _
  rw [after0_2]
  unfold out0_2
  rw [View.canon_unit_zero zeros2]
  simp only [View.ld_unit_zero (S := S256x128) zeros2, View.ld_unit_zero (S := S3x256x128) zeros3]
  rw [labels_block, coords_block]
  obtain ⟨-, -, -, -, -, e0, e1⟩ := index_zero t
  funext y
  show stored m c y = stored m c (((cfg0.win 2).blk t).view.emb y)
  refine congrArg (stored m c) (funext fun a => Fin.ext ?_)
  match a with
  | ⟨0, _⟩ => show (y 0).val = win0_2.index t (0 : Fin 2) * 1 + 1 * (y 0).val; omega
  | ⟨1, _⟩ => show (y 1).val = win0_2.index t (1 : Fin 2) * 1 + 1 * (y 1).val; omega

/-- An index of the output array is in the point's block iff each coordinate is in the block's range. -/
theorem mem_block (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v3).slice (win0_2.rect t)).set ↔ _
  rw [View.set_slice_whole, Rect.mem_set_unit]
  exact Iff.rfl

/-- The output array after the run is the stored value. -/
theorem output_array (c : Dev nD) : (dats m 0 c).arrAt 2 cfg0.N = stored m c :=
  (dats m 0 c).arrAt_eq_of_cover 2 (stored m c) (fun t _ => flushed_eq m c t) fun i => by
    refine ⟨t0_0, flush0_2 t0_0, ?_⟩
    rw [mem_block]
    obtain ⟨-, -, -, -, -, e0, e1⟩ := index_zero t0_0
    have h0 : (i 0).val < 1 := (i 0).isLt
    have h1 : (i 1).val < 1 := (i 1).isLt
    intro a
    match a with
    | ⟨0, _⟩ => show win0_2.index t0_0 (0 : Fin 2) * 1 ≤ (i 0).val ∧ (i 0).val < win0_2.index t0_0 (0 : Fin 2) * 1 + 1; omega
    | ⟨1, _⟩ => show win0_2.index t0_0 (1 : Fin 2) * 1 ≤ (i 1).val ∧ (i 1).val < win0_2.index t0_0 (1 : Fin 2) * 1 + 1; omega

/-- The label tile the region finds: the label argument reshaped. -/
theorem labels_tile (c : Dev nD) :
    (V m c main_v0 : S256x128.Idx → BitVec 32)
      = shapeCast S256x128 (m ((c : Thread nD τ).loc main_arg0)) shapeCasts_S32768_S256x128 := by
  show StableHlo.after hostOps0 (fun b => m (c, b)) (Proc.devRef .tc main_v0) = _
  after_results
  rfl

/-- The coordinate tiles the region finds: the coordinate argument transposed, then reshaped. -/
theorem coords_tile (c : Dev nD) :
    (V m c main_v2 : S3x256x128.Idx → EReal)
      = shapeCast S3x256x128 (transpose S3x32768 [1, 0] (m ((c : Thread nD τ).loc main_arg1)) transposes_S32768x3_S3x32768_1_0)
          shapeCasts_S3x32768_S3x256x128 := by
  show StableHlo.after hostOps0 (fun b => m (c, b)) (Proc.devRef .tc main_v2) = _
  after_results
  rfl

/-- The program's result: the host line after the region reshapes the output array to a scalar. -/
theorem result_eq (c : Dev nD) :
    Pipeline.afterTail₀ cfgs (dats m) 0 (V0 m) [hostOps1] c main_v4
      = fun _ => total (m ((c : Thread nD τ).loc main_arg0)) (m ((c : Thread nD τ).loc main_arg1)) := by
  unfold Pipeline.afterTail₀
  show StableHlo.after hostOps1 _ (Proc.devRef .tc main_v4) = _
  after_results
  funext i
  show shapeCast S_ (Pipeline.withArrays spec0 c (V0 m c) (fun w => (dats m 0 c).arrAt w cfg0.N) (Proc.devRef .tc main_v3))
      shapeCasts_S1x1_S_ i = _
  refine (shapeCast_apply _ shapeCasts_S1x1_S_ i (ix2 (0 : Fin 1) (0 : Fin 1)) ?_).trans ?_
  · rw [Shape.rowMajor_val_two]
    exact (Shape.rowMajorPi_zero _ _).symm
  refine (congrFun ((Pipeline.withArrays_arr spec0 launch0.win.arr_inj c _ _ 2).trans (output_array m c))
    (ix2 (0 : Fin 1) (0 : Fin 1))).trans ?_
  show k0_pay1 (F := Ideal) (V m c main_v0) (V m c main_v2) (ix2 (0 : Fin 1) (0 : Fin 1)) = _
  rw [labels_tile, coords_tile]
  exact TileLoss.pay_total _ _ _ _ _ _

/-- THE RUN, READ: every weakly fair execution of the idealized kernel terminates with its result at the total
    loss of the two arguments, the arguments unchanged. -/
theorem run : θ_run defs (onTc (τ := τ) (main (F := Ideal))) ⟨m, fun _ => 0, ρ⟩ (fun r => ∀ c : Dev nD,
      r.2.mem ((c.tc : Thread nD τ).loc main_v4)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.LossRun

end
-- ==== Proof.lean ====
/-
  A contrastive loss against the last row, summed to a scalar: the Pallas kernel against its jnp reference.

  Inputs: 32768 integer labels and 32768 points of three float coordinates. The ANCHOR is the last row.
  Every row `n` gets a mask (the word `0.0` if its label is the anchor's, else `1.0`), a squared distance
  `Σ_d (x[anchor, d] - x[n, d])²` and the loss `(1 - mask) · dist + mask · max(0, 500 - dist)`; the result is
  the sum of the row losses (`Cert.Loss.total`, Proof/LossSpec.lean).

  The reference computes this directly over the rows (Proof/RefLoss.lean, over the generated read-back of its
  run). The kernel first lays the rows out as a [256, 128] tile (and the coordinates as three such tiles),
  takes its anchor from the tile's last corner, forms the same per-entry loss, and sums lanes first and
  sublanes second; its one grid point writes that single value back, and a final reshape makes it a scalar
  (Proof/KernelLoss.lean for the stored value, Proof/KernelRun.lean for the run). The two results are the
  same extended real: the per-row terms are the same operations on the same words, and the only difference
  — the grouping of a finite sum — is immaterial in a commutative monoid. No finiteness of the inputs is used.

  Idealizing the kernel rewrote none of its operations, so the preservation claim is trivial; the two kernel
  frames are the generated ones, and the reference's frame is its generated run with the result dropped.
-/
import proofs.«421888_j17875653886357_3_alg».proof.Defs
import proofs.«421888_j17875653886357_3_alg».proof.Proof.Gen.Kernel
import proofs.«421888_j17875653886357_3_alg».proof.Proof.Gen.Kernel.Skeleton
import proofs.«421888_j17875653886357_3_alg».proof.Proof.Gen.Kernel.Launch
import proofs.«421888_j17875653886357_3_alg».proof.Proof.Gen.Kernel.Points
import proofs.«421888_j17875653886357_3_alg».proof.Proof.Gen.Kernel.Frame
import proofs.«421888_j17875653886357_3_alg».proof.Proof.Gen.KernelIdeal
import proofs.«421888_j17875653886357_3_alg».proof.Proof.Gen.KernelIdeal.Skeleton
import proofs.«421888_j17875653886357_3_alg».proof.Proof.Gen.KernelIdeal.Launch
import proofs.«421888_j17875653886357_3_alg».proof.Proof.Gen.KernelIdeal.Points
import proofs.«421888_j17875653886357_3_alg».proof.Proof.Gen.KernelIdeal.Frame
import proofs.«421888_j17875653886357_3_alg».proof.Proof.Gen.ReferenceIdeal
import proofs.«421888_j17875653886357_3_alg».proof.Proof.Gen.ReferenceIdeal.Run
import proofs.«421888_j17875653886357_3_alg».proof.Proof.Gen.ReferenceIdeal.Read
import proofs.«421888_j17875653886357_3_alg».proof.Proof.Gen.Pre_finite_inputs
import proofs.«421888_j17875653886357_3_alg».proof.Proof.LossSpec
import proofs.«421888_j17875653886357_3_alg».proof.Proof.RefLoss
import proofs.«421888_j17875653886357_3_alg».proof.Proof.KernelLoss
import proofs.«421888_j17875653886357_3_alg».proof.Proof.KernelRun
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference terminates and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the labels and the points, end with the total loss of those
    arguments in their result. -/
theorem algebraic : Cert.algebraic_KernelIdeal_ReferenceIdeal := by
  intro m ρ m' ρ' _ hagree
  refine ⟨fun c _ => Cert.Loss.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.LossRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  funext i
  exact Cert.ReferenceIdeal.RefLoss.result_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
